-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S10x1024x1024 : Shape := ⟨3, ![10, 1024, 1024]⟩
abbrev S1024x256 : Shape := ⟨2, ![1024, 256]⟩
abbrev S256 : Shape := ⟨1, ![256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10x1024x1024 : S_.BroadcastsInDim S10x1024x1024 (![] : Fin 0 → Fin S10x1024x1024.rank)
  reducesTo_S10x1024x1024_S_d0_1_2 : S10x1024x1024.ReducesTo [0, 1, 2] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg3 : IVec S256 32) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg3 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v13 main_v19
  main_v20

def fn {F : FTy → Type} [FloatOps F] (main_arg0 : FVec F S8192x1024 .f32) (main_arg1 : FVec F S10x1024x1024 .f32) (main_arg2 : FVec F S1024x256 .f32) (main_arg3 : IVec S256 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S10x1024x1024 .f32 := Host.absf main_arg1
  let main_cst_0 : FVec F S_ .f32 := constant S_ .f32 0x7F800000#32
  let main_v5 : FVec F S10x1024x1024 .f32 := broadcastInDim S10x1024x1024 ![] bcast_S_S10x1024x1024 main_cst_0
  let main_v6 : IVec S10x1024x1024 1 := cmpf .olt main_v4 main_v5
  let main_c_1 : IVec S_ 1 := constantI S_ 1 1#1
  let main_v7 : IVec S_ 1 := (fun x v => Host.reduce IntOp.andi x v reducesTo_S10x1024x1024_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg3 main_v14
  let main_c_5 : IVec S_ 32 := constantI S_ 32 1024#32
  fn_part1 (F := F) main_arg3 main_v13 main_v15 main_c_5
-- ==== Kernel.lean ====
abbrev S8192x1024 : Shape := ⟨2, ![8192, 1024]⟩
abbrev S10x1024x1024 : Shape := ⟨3, ![10, 1024, 1024]⟩
abbrev S1024x256 : Shape := ⟨2, ![1024, 256]⟩
abbrev S256 : Shape := ⟨1, ![256]⟩
abbrev S1x256 : Shape := ⟨2, ![1, 256]⟩
abbrev S256x1024 : Shape := ⟨2, ![256, 1024]⟩
abbrev S1024x1024 : Shape := ⟨2, ![1024, 1024]⟩
abbrev S512x1024 : Shape := ⟨2, ![512, 1024]⟩
abbrev S1x1024x1024 : Shape := ⟨3, ![1, 1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S10x1024x1024, .f32⟩
  | .hbm, ⟨2, _⟩ => ⟨S1024x256, .f32⟩
  | .hbm, ⟨3, _⟩ => ⟨S256, .i32⟩
  | .hbm, ⟨4, _⟩ => ⟨S10x1024x1024, .bf16⟩
  | .hbm, ⟨5, _⟩ => ⟨S1024x256, .i32⟩
  | .hbm, ⟨6, _⟩ => ⟨S1x256, .i32⟩
  | .hbm, ⟨7, _⟩ => ⟨S1024x256, .i32⟩
  | .hbm, ⟨8, _⟩ => ⟨S1024x256, .i1⟩
  | .hbm, ⟨9, _⟩ => ⟨S1024x256, .f32⟩
  | .hbm, ⟨10, _⟩ => ⟨S256x1024, .f32⟩
  | .hbm, ⟨11, _⟩ => ⟨S1024x1024, .f32⟩
  | .hbm, ⟨12, _⟩ => ⟨S1024x1024, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S10x1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  transposes_S1024x256_S256x1024_1_0 : S1024x256.Transposes [1, 0] S256x1024
  inb_S512x1024_S512x1024_0_0 : ∀ a, (![0, 0] : Fin 2 → Nat) a + S512x1024.size a ≤ S512x1024.size a
  h_S512x1024 : 0 < S512x1024.numel
  inb_S10x1024x1024_S1x1024x1024_0_0_0 : ∀ a, (![0, 0, 0] : Fin 3 → Nat) a + S1x1024x1024.size a ≤ S10x1024x1024.size a
  h_S1x1024x1024 : 0 < S1x1024x1024.numel
  shapeCasts_S1x1024x1024_S1024x1024 : S1x1024x1024.ShapeCasts S1024x1024
  inb_S10x1024x1024_S1x1024x1024_1_0_0 : ∀ a, (![1, 0, 0] : Fin 3 → Nat) a + S1x1024x1024.size a ≤ S10x1024x1024.size a
  inb_S10x1024x1024_S1x1024x1024_2_0_0 : ∀ a, (![2, 0, 0] : Fin 3 → Nat) a + S1x1024x1024.size a ≤ S10x1024x1024.size a
  inb_S10x1024x1024_S1x1024x1024_3_0_0 : ∀ a, (![3, 0, 0] : Fin 3 → Nat) a + S1x1024x1024.size a ≤ S10x1024x1024.size a
  inb_S10x1024x1024_S1x1024x1024_4_0_0 : ∀ a, (![4, 0, 0] : Fin 3 → Nat) a + S1x1024x1024.size a ≤ S10x1024x1024.size a
  inb_S10x1024x1024_S1x1024x1024_5_0_0 : ∀ a, (![5, 0, 0] : Fin 3 → Nat) a + S1x1024x1024.size a ≤ S10x1024x1024.size a
  inb_S10x1024x1024_S1x1024x1024_6_0_0 : ∀ a, (![6, 0, 0] : Fin 3 → Nat) a + S1x1024x1024.size a ≤ S10x1024x1024.size a
  inb_S10x1024x1024_S1x1024x1024_7_0_0 : ∀ a, (![7, 0, 0] : Fin 3 → Nat) a + S1x1024x1024.size a ≤ S10x1024x1024.size a
  inb_S10x1024x1024_S1x1024x1024_8_0_0 : ∀ a, (![8, 0, 0] : Fin 3 → Nat) a + S1x1024x1024.size a ≤ S10x1024x1024.size a
  inb_S10x1024x1024_S1x1024x1024_9_0_0 : ∀ a, (![9, 0, 0] : Fin 3 → Nat) a + S1x1024x1024.size a ≤ S10x1024x1024.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x256_S256x1024_S1024x1024_1_0_0_1_n_n_wf : DotDims.WF S1024x256 S256x1024 S1024x1024 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1024x1024.size a ≤ S10x1024x1024.size a
  hwx0_1 : ∀ i : grid0.Coords, EltTy.bits .bf16 = 32 ∨ (Rect.block (s := S10x1024x1024) S10x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S10x1024x1024 : Shape := ⟨3, ![10, 1024, 1024]⟩
abbrev S1024x256 : Shape := ⟨2, ![1024, 256]⟩
abbrev S256 : Shape := ⟨1, ![256]⟩
abbrev S1x1024x1024 : Shape := ⟨3, ![1, 1024, 1024]⟩
abbrev S1024x1024 : Shape := ⟨2, ![1024, 1024]⟩
abbrev S_ : Shape := ⟨0, ![]⟩
abbrev S256x1 : Shape := ⟨2, ![256, 1]⟩
abbrev S8192x256 : Shape := ⟨2, ![8192, 256]⟩
abbrev S256x1024 : Shape := ⟨2, ![256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S10x1024x1024, .f32⟩
  | .hbm, ⟨2, _⟩ => ⟨S1024x256, .f32⟩
  | .hbm, ⟨3, _⟩ => ⟨S256, .i32⟩
  | .hbm, ⟨4, _⟩ => ⟨S1x1024x1024, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S1x1024x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S1x1024x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S1x1024x1024, .f32⟩
  | .hbm, ⟨17, _⟩ => ⟨S1024x1024, .f32⟩
  | .hbm, ⟨18, _⟩ => ⟨S1024x1024, .f32⟩
  | .hbm, ⟨19, _⟩ => ⟨S8192x1024, .f32⟩
  | .hbm, ⟨20, _⟩ => ⟨S1x1024x1024, .f32⟩
  | .hbm, ⟨21, _⟩ => ⟨S1024x1024, .f32⟩
  | .hbm, ⟨22, _⟩ => ⟨S1024x1024, .f32⟩
  | .hbm, ⟨23, _⟩ => ⟨S8192x1024, .f32⟩
  | .hbm, ⟨24, _⟩ => ⟨S1x1024x1024, .f32⟩
  | .hbm, ⟨25, _⟩ => ⟨S1024x1024, .f32⟩
  | .hbm, ⟨26, _⟩ => ⟨S1024x1024, .f32⟩
  | .hbm, ⟨27, _⟩ => ⟨S8192x1024, .f32⟩
  | .hbm, ⟨28, _⟩ => ⟨S1x1024x1024, .f32⟩
  | .hbm, ⟨29, _⟩ => ⟨S1024x1024, .f32⟩
  | .hbm, ⟨30, _⟩ => ⟨S1024x1024, .f32⟩
  | .hbm, ⟨31, _⟩ => ⟨S8192x1024, .f32⟩
  | .hbm, ⟨32, _⟩ => ⟨S1x1024x1024, .f32⟩
  | .hbm, ⟨33, _⟩ => ⟨S1024x1024, .f32⟩
  | .hbm, ⟨34, _⟩ => ⟨S1024x1024, .f32⟩
  | .hbm, ⟨35, _⟩ => ⟨S8192x1024, .f32⟩
  | .hbm, ⟨36, _⟩ => ⟨S1x1024x1024, .f32⟩
  | .hbm, ⟨37, _⟩ => ⟨S1024x1024, .f32⟩
  | .hbm, ⟨38, _⟩ => ⟨S1024x1024, .f32⟩
  | .hbm, ⟨39, _⟩ => ⟨S8192x1024, .f32⟩
  | .hbm, ⟨40, _⟩ => ⟨S1x1024x1024, .f32⟩
  | .hbm, ⟨41, _⟩ => ⟨S1024x1024, .f32⟩
  | .hbm, ⟨42, _⟩ => ⟨S1024x1024, .f32⟩
  | .hbm, ⟨43, _⟩ => ⟨S8192x1024, .f32⟩
  | .hbm, ⟨44, _⟩ => ⟨S1x1024x1024, .f32⟩
  | .hbm, ⟨45, _⟩ => ⟨S1024x1024, .f32⟩
  | .hbm, ⟨46, _⟩ => ⟨S1024x1024, .f32⟩
  | .hbm, ⟨47, _⟩ => ⟨S8192x1024, .f32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S8192x256, .f32⟩
  | .hbm, ⟨57, _⟩ => ⟨S256x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_c : Ref sig .tc := ⟨.hbm, 48, rfl⟩
abbrev main_v44 : Ref sig .tc := ⟨.hbm, 49, rfl⟩
abbrev main_v45 : Ref sig .tc := ⟨.hbm, 50, rfl⟩
abbrev main_c_0 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩

abbrev nD : Nat := 1
abbrev τ : Topo := Topo.v7x

variable {F : FTy → Type} [FloatOps F]

class Facts₀ : Prop where
  slices_S10x1024x1024_S1x1024x1024_0_0_0 : S10x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S10x1024x1024_S1x1024x1024_1_0_0 : S10x1024x1024.Slices ![1, 0, 0] S1x1024x1024
  slices_S10x1024x1024_S1x1024x1024_2_0_0 : S10x1024x1024.Slices ![2, 0, 0] S1x1024x1024
  slices_S10x1024x1024_S1x1024x1024_3_0_0 : S10x1024x1024.Slices ![3, 0, 0] S1x1024x1024
  slices_S10x1024x1024_S1x1024x1024_4_0_0 : S10x1024x1024.Slices ![4, 0, 0] S1x1024x1024
  slices_S10x1024x1024_S1x1024x1024_5_0_0 : S10x1024x1024.Slices ![5, 0, 0] S1x1024x1024
  slices_S10x1024x1024_S1x1024x1024_6_0_0 : S10x1024x1024.Slices ![6, 0, 0] S1x1024x1024
  slices_S10x1024x1024_S1x1024x1024_7_0_0 : S10x1024x1024.Slices ![7, 0, 0] S1x1024x1024
  slices_S10x1024x1024_S1x1024x1024_8_0_0 : S10x1024x1024.Slices ![8, 0, 0] S1x1024x1024
  slices_S10x1024x1024_S1x1024x1024_9_0_0 : S10x1024x1024.Slices ![9, 0, 0] S1x1024x1024
  bcast_S_S256 : S_.BroadcastsInDim S256 (![] : Fin 0 → Fin S256.rank)
  bcast_S256_S256x1_0 : S256.BroadcastsInDim S256x1 (![0] : Fin 1 → Fin S256x1.rank)
  transposes_S1024x256_S256x1024_1_0 : S1024x256.Transposes [1, 0] S256x1024
  dot_S8192x1024_S1024x1024_S8192x1024_1_0_0_1_n_n_wf : DotDims.WF S8192x1024 S1024x1024 S8192x1024 [1] [0] [0] [1] [] []
  gather_S8192x1024_S256x1_S8192x256_0_1_n_n_1_1_81921_wf : GatherDims.WF S8192x1024 S256x1 S8192x256 [0] [1] [] [1] [] 1 ![8192, 1]
  dot_S8192x256_S256x1024_S8192x1024_1_0_0_1_n_n_wf : DotDims.WF S8192x256 S256x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S8192x1024_S256x1_S8192x256_0_1_n_n_1_1_81921 : GatherDims S8192x1024 S256x1 S8192x256 where
  offsetDims := [0]
  collapsedSliceDims := [1]
  operandBatchingDims := []
  startIndicesBatchingDims := []
  startIndexMap := [1]
  indexVectorDim := 1
  sliceSizes := ![8192, 1]
  wf := gather_S8192x1024_S256x1_S8192x256_0_1_n_n_1_1_81921_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf

class Facts : Prop extends Facts₀ where

variable [Facts]
-- ==== Proof.RowMaps.lean ====
/-
  The mathematics of the chain, one row at a time.

  Both programs send each row `h₀` of `x` (1024 numbers) through eleven linear layers
  `h ↦ (o ↦ Σ_d h[d] · W[o][d])` — the weights `W₀ … W₈`, `W₈` once more, then `W₉` — and then decode the
  result `h` against `D = W_dec` (1024 × 256) along 256 selected columns `p k`.  The reference gathers first,
  `out[j] = Σ_k h[p k] · D[j][k]`; the kernel folds the selection into a square matrix first,
  `C[d][j] = Σ_k δ[d][k] · D[j][k]` with `δ[d][k] = 1` when `d = p k` and `0` otherwise, and then multiplies,
  `out[j] = Σ_d h[d] · C[d][j]`.

  The two decodes agree because `Σ_d h[d] · δ[d][k] = h[p k]`; to exchange the two sums and to distribute
  `h[d]` over the inner sum one needs every number involved to be a real (on the extended reals
  `a · (b + c) = a · b + a · c` fails at the infinities), and a layer of reals is a row of reals again.
-/
import Idealize.ShloMosaic.PureOps.Ideal

noncomputable section

open scoped BigOperators

namespace Cert.RowMaps

/-- A family of extended reals all of whose members are real numbers. -/
def Real1 {ι : Type} (f : ι → EReal) : Prop := ∀ i, ∃ r : ℝ, f i = (r : EReal)

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- One linear layer on a row: `(h · Wᵀ)[o] = Σ_d h[d] · w[o][d]`. -/
def layer (h : Fin 1024 → EReal) (w : Fin 1024 → Fin 1024 → EReal) : Fin 1024 → EReal :=
  fun o => ∑ d : Fin 1024, h d * w o d

/-- A layer of real weights sends a real row to a real row. -/
theorem layer_real {h : Fin 1024 → EReal} {w : Fin 1024 → Fin 1024 → EReal}
    (hh : Real1 h) (hw : ∀ o, Real1 (w o)) : Real1 (layer h w) := by
  choose hr hhr using hh
  choose wr hwr using hw
  intro o
  refine ⟨∑ d : Fin 1024, hr d * wr o d, ?_⟩
  unfold layer
  rw [coe_sum]
  exact Finset.sum_congr rfl fun d _ => by rw [hhr d, hwr o d, EReal.coe_mul]

/-- The eleven layers: weights 0 to 8 in order, weight 8 a second time, then weight 9. -/
def chain (W : Fin 10 → Fin 1024 → Fin 1024 → EReal) (h : Fin 1024 → EReal) : Fin 1024 → EReal :=
  layer (layer (layer (layer (layer (layer (layer (layer (layer (layer (layer h
    (W 0)) (W 1)) (W 2)) (W 3)) (W 4)) (W 5)) (W 6)) (W 7)) (W 8)) (W 8)) (W 9)

/-- The chain of real weights sends a real row to a real row. -/
theorem chain_real {W : Fin 10 → Fin 1024 → Fin 1024 → EReal} {h : Fin 1024 → EReal}
    (hW : ∀ n o, Real1 (W n o)) (hh : Real1 h) : Real1 (chain W h) := by
  unfold chain
  exact layer_real (layer_real (layer_real (layer_real (layer_real (layer_real (layer_real (layer_real
    (layer_real (layer_real (layer_real hh (hW 0)) (hW 1)) (hW 2)) (hW 3)) (hW 4)) (hW 5)) (hW 6)) (hW 7))
    (hW 8)) (hW 8)) (hW 9)

/-- The reference's decode: gather the selected entries of the row, then contract with `D`. -/
def decodeGather (p : Fin 256 → Fin 1024) (D : Fin 1024 → Fin 256 → EReal) (h : Fin 1024 → EReal) :
    Fin 1024 → EReal :=
  fun j => ∑ k : Fin 256, h (p k) * D j k

/-- The kernel's folded decode matrix: `C[d][j] = Σ_k δ[d][k] · D[j][k]`. -/
def foldMat (δ : Fin 1024 → Fin 256 → EReal) (D : Fin 1024 → Fin 256 → EReal) : Fin 1024 → Fin 1024 → EReal :=
  fun d j => ∑ k : Fin 256, δ d k * D j k

/-- The kernel's decode: one more square product, with the folded matrix. -/
def decodeFolded (C : Fin 1024 → Fin 1024 → EReal) (h : Fin 1024 → EReal) : Fin 1024 → EReal :=
  fun j => ∑ d : Fin 1024, h d * C d j

/-- THE LAW that joins the two programs: for a real row and a real `D`, multiplying by the folded matrix of the
    selection `δ[d][k] = [d = p k]` is gathering along `p` and contracting with `D`. Over the reals:
    `Σ_d h[d] · Σ_k [d = p k] · D[j][k] = Σ_k (Σ_d h[d] · [d = p k]) · D[j][k] = Σ_k h[p k] · D[j][k]`. -/
theorem decodeFolded_eq_decodeGather (p : Fin 256 → Fin 1024) {D : Fin 1024 → Fin 256 → EReal}
    {δ : Fin 1024 → Fin 256 → EReal} {h : Fin 1024 → EReal}
    (hδ : ∀ d k, δ d k = if d = p k then 1 else 0) (hD : ∀ j, Real1 (D j)) (hh : Real1 h) :
    decodeFolded (foldMat δ D) h = decodeGather p D h := by
  choose hr hhr using hh
  choose Dr hDr using hD
  funext j
  unfold decodeFolded foldMat decodeGather
  have e1 : ∀ d : Fin 1024, h d * ∑ k : Fin 256, δ d k * D j k
      = ((hr d * ∑ k : Fin 256, (if d = p k then (1 : ℝ) else 0) * Dr j k : ℝ) : EReal) := by
    intro d
    rw [EReal.coe_mul, coe_sum, hhr d]
    refine congrArg (_ * ·) (Finset.sum_congr rfl fun k _ => ?_)
    rw [hδ d k, hDr j k, EReal.coe_mul]
    by_cases hdk : d = p k
    · rw [if_pos hdk, if_pos hdk, EReal.coe_one]
    · rw [if_neg hdk, if_neg hdk, EReal.coe_zero]
  have e2 : ∀ k : Fin 256, h (p k) * D j k = ((hr (p k) * Dr j k : ℝ) : EReal) := by
    intro k
    rw [hhr (p k), hDr j k, EReal.coe_mul]
  rw [Finset.sum_congr rfl fun d _ => e1 d, Finset.sum_congr rfl fun k _ => e2 k, ← coe_sum, ← coe_sum]
  refine congrArg _ ?_
  simp only [Finset.mul_sum]
  rw [Finset.sum_comm]
  refine Finset.sum_congr rfl fun k _ => ?_
  rw [Finset.sum_eq_single (p k)]
  · rw [if_pos rfl, one_mul]
  · intro d _ hd
    rw [if_neg hd, zero_mul, mul_zero]
  · intro hne
    exact absurd (Finset.mem_univ _) hne

end Cert.RowMaps

end
-- ==== Proof.Coords.lean ====
/-
  Arrays of extended reals read by their coordinates: a row of a matrix with 1024 columns, a matrix with 1024 rows as
  a function of two coordinates, the stack of ten square matrices as a function of three. Both programs' values are
  stated through these, so that the mathematics (RowMaps) never meets an array index.
-/
import Idealize.ShloMosaic.Lib.ValueIdx

noncomputable section

namespace Cert.Coords

open Idealize.ShloMosaic Idealize.ShloMosaic.ValueIdx

/-- Row `p` of an [n × 1024] array of extended reals. -/
def rowOf {n : Nat} (a : (⟨2, ![n, 1024]⟩ : Shape).Idx → EReal) (p : Fin n) : Fin 1024 → EReal :=
  fun d => a (ix2 p d)

/-- A [1024 × m] array as a function of its two coordinates. -/
def matOf {m : Nat} (w : (⟨2, ![1024, m]⟩ : Shape).Idx → EReal) : Fin 1024 → Fin m → EReal :=
  fun o d => w (ix2 o d)

/-- The stack of ten weight matrices as a function of its three coordinates. -/
def stackOf (x1 : (⟨3, ![10, 1024, 1024]⟩ : Shape).Idx → EReal) : Fin 10 → Fin 1024 → Fin 1024 → EReal :=
  fun n o d => x1 (ix3 n o d)

/-- An [n × 1024] array is determined by its rows. -/
theorem ext_rows {n : Nat} {a b : (⟨2, ![n, 1024]⟩ : Shape).Idx → EReal} (h : ∀ p, rowOf a p = rowOf b p) : a = b := by
  funext i
  rw [eq_ix2 i]
  exact congrFun (h (i 0)) (i 1)

end Cert.Coords

end
-- ==== Proof.KernelRow.lean ====
/-
  The kernel body's arithmetic, one row of its block at a time.

  The body loads its block of `x` (512 rows), the whole stack of ten weight matrices and the folded decode matrix,
  and stores ONE value: twelve matrix products in a row, each into a zero accumulator, with a change of float format
  (the identity on the extended reals) between them. Eleven of them contract the running row with the SECOND axis of a
  weight matrix (`out[p][o] = Σ_d a[p][d] · w[o][d]`: a linear layer, `RowMaps.layer`); the last contracts with the
  FIRST axis of the folded matrix (`out[p][q] = Σ_d a[p][d] · c[d][q]`: `RowMaps.decodeFolded`). So row `p` of what
  the body stores is `decodeFolded C (chain W (row p of the block))`.
-/
import proofs.«404807_j62981400428626_2_alg».proof.Proof.Gen.KernelIdeal.Frame
import proofs.«404807_j62981400428626_2_alg».proof.Proof.RowMaps
import proofs.«404807_j62981400428626_2_alg».proof.Proof.Coords
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowMaps Cert.Coords

/-- A change of float format does not change a row. -/
theorem rowOf_truncf (v : FVec Ideal S512x1024 .f32) (h : FTy.bits .bf16 < FTy.bits .f32) (p : Fin 512) :
    rowOf (truncf .bf16 v h : FVec Ideal S512x1024 .bf16) p = rowOf v p := rfl

/-! ## The product that contracts the second axis of both operands -/

theorem lhsT_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhsT_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhsT_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhsT_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator, at `(p, o)`: the sum over `d` of `a[p][d] · w[o][d]`. -/
theorem matmulT_apply (a : FVec Ideal S512x1024 .bf16) (w : FVec Ideal S1024x1024 .bf16) (p : Fin 512) (o : Fin 1024) :
    matmul dot_S512x1024_S1024x1024_S512x1024_1_1_0_0_n_n none a w (constant S512x1024 .f32 0x00000000#32) (ix2 p o)
      = ∑ d : Fin 1024, a (ix2 p d) * w (ix2 o d) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p o) ((ValueIdx.contrEquiv1 dot_S512x1024_S1024x1024_S512x1024_1_1_0_0_n_n 1024 rfl rfl).symm k) = ix2 p k := funext fun a => Fin.ext (by
    match a with
    | ⟨0, _⟩ => exact lhsT_0 _ _
    | ⟨1, _⟩ => exact (lhsT_1 _ _).trans hk)
  have er : dot_S512x1024_S1024x1024_S512x1024_1_1_0_0_n_n.rhsIdx (ix2 p o) ((ValueIdx.contrEquiv1 dot_S512x1024_S1024x1024_S512x1024_1_1_0_0_n_n 1024 rfl rfl).symm k) = ix2 o k := funext fun a => Fin.ext (by
    match a with
    | ⟨0, _⟩ => exact rhsT_0 _ _
    | ⟨1, _⟩ => exact (rhsT_1 _ _).trans hk)
  rw [el, er]

/-- So each of its rows is a linear layer of the left operand's row. -/
theorem matmulT_row (a : FVec Ideal S512x1024 .bf16) (w : FVec Ideal S1024x1024 .bf16) (p : Fin 512) :
    rowOf (matmul dot_S512x1024_S1024x1024_S512x1024_1_1_0_0_n_n none a w (constant S512x1024 .f32 0x00000000#32)) p
      = layer (rowOf a p) (matOf w) :=
  funext fun o => matmulT_apply a w p o

/-! ## The product that contracts the left operand's second axis with the right operand's first -/

theorem lhsN_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhsN_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhsN_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhsN_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into a zero accumulator, at `(p, q)`: the sum over `d` of `a[p][d] · c[d][q]`. -/
theorem matmulN_apply (a : FVec Ideal S512x1024 .bf16) (c : FVec Ideal S1024x1024 .bf16) (p : Fin 512) (q : Fin 1024) :
    matmul dot_S512x1024_S1024x1024_S512x1024_1_0_0_1_n_n none a c (constant S512x1024 .f32 0x00000000#32) (ix2 p q)
      = ∑ d : Fin 1024, a (ix2 p d) * c (ix2 d q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhsN_0 _ _
    | ⟨1, _⟩ => exact (lhsN_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhsN_0 _ _).trans hk
    | ⟨1, _⟩ => exact rhsN_1 _ _)
  rw [el, er]

/-- So each of its rows is the folded decode of the left operand's row. -/
theorem matmulN_row (a : FVec Ideal S512x1024 .bf16) (c : FVec Ideal S1024x1024 .bf16) (p : Fin 512) :
    rowOf (matmul dot_S512x1024_S1024x1024_S512x1024_1_0_0_1_n_n none a c (constant S512x1024 .f32 0x00000000#32)) p
      = decodeFolded (matOf c) (rowOf a p) :=
  funext fun q => matmulN_apply a c p q

/-! ## The loaded operands -/

/-- Matrix `n` of the stack, loaded as a [1 × 1024 × 1024] slab and cast to [1024 × 1024], is the stack at `n`. -/
theorem matOf_slab (x1 : Vec Ideal S10x1024x1024 .bf16) (n : Nat) (hn : n < 10)
    (inb : ∀ a, (![n, 0, 0] : Fin 3 → Nat) a + S1x1024x1024.size a ≤ S10x1024x1024.size a) :
    matOf (shapeCast S1024x1024 (View.ld (Val := Elt Ideal) (e' := .bf16) x1 (Rect.unit (s := S10x1024x1024) ![n, 0, 0] S1x1024x1024.size inb) : Vec Ideal S1x1024x1024 .bf16) shapeCasts_S1x1024x1024_S1024x1024)
      = stackOf x1 ⟨n, hn⟩ := by
  funext o d
  unfold matOf stackOf
  refine (shapeCast_apply _ shapeCasts_S1x1024x1024_S1024x1024 (ix2 o d) (ix3 (0 : Fin 1) o d) ?_).trans ?_
  · rw [Shape.rowMajor_val_three, Shape.rowMajor_val_two]
    show (0 * 1024 + o.val) * 1024 + d.val = o.val * 1024 + d.val
    omega
  · show x1 _ = x1 _
    refine congrArg x1 (funext fun a => Fin.ext ?_)
    match a with
    | ⟨0, _⟩ => show n + 1 * 0 = n; omega
    | ⟨1, _⟩ => show 0 + 1 * o.val = o.val; omega
    | ⟨2, _⟩ => show 0 + 1 * d.val = d.val; omega

/-- The cast of a [1024 × 1024] matrix to its own shape changes nothing. -/
theorem matOf_cast_self (v : FVec Ideal S1024x1024 .bf16) :
    matOf (shapeCast S1024x1024 v shapeCasts_S1024x1024_S1024x1024) = matOf v := by
  funext o d
  unfold matOf
  exact shapeCast_apply _ shapeCasts_S1024x1024_S1024x1024 (ix2 o d) (ix2 o d) rfl

theorem zero2 : (![0, 0] : Fin 2 → Nat) = fun _ => 0 := funext fun a => by fin_cases a <;> rfl

/-! ## Row `p` of what the body stores -/

/-- Row `p` of the body's one stored value, as a function of the three blocks it loads: the folded decode, with the
    folded matrix `x2`, of the chain, with the stack `x1`, of row `p` of the block `x0`. -/
theorem stored_row (x0 : Vec Ideal S512x1024 .f32) (x1 : Vec Ideal S10x1024x1024 .bf16) (x2 : Vec Ideal S1024x1024 .bf16) (p : Fin 512) :
    rowOf (out0_3 (F := Ideal) x0 x1 x2) p = decodeFolded (matOf x2) (chain (stackOf x1) (rowOf x0 p)) := by
  unfold out0_3
  rw [View.canon_unit_zero zero2]
  unfold k0_pay1 k0_pay2
  simp only [matmulN_row, matmulT_row, rowOf_truncf, matOf_slab, matOf_cast_self, View.ld_unit_zero (S := S512x1024) zero2,
    View.ld_unit_zero (S := S1024x1024) zero2]
  have e0 : matOf (shapeCast S1024x1024 (View.ld x1 r0_1) shapeCasts_S1x1024x1024_S1024x1024) = stackOf x1 0 :=
    matOf_slab x1 0 (by decide) inb_S10x1024x1024_S1x1024x1024_0_0_0
  have e1 : matOf (shapeCast S1024x1024 (View.ld x1 r0_2) shapeCasts_S1x1024x1024_S1024x1024) = stackOf x1 1 :=
    matOf_slab x1 1 (by decide) inb_S10x1024x1024_S1x1024x1024_1_0_0
  have e2 : matOf (shapeCast S1024x1024 (View.ld x1 r0_3) shapeCasts_S1x1024x1024_S1024x1024) = stackOf x1 2 :=
    matOf_slab x1 2 (by decide) inb_S10x1024x1024_S1x1024x1024_2_0_0
  have e3 : matOf (shapeCast S1024x1024 (View.ld x1 r0_4) shapeCasts_S1x1024x1024_S1024x1024) = stackOf x1 3 :=
    matOf_slab x1 3 (by decide) inb_S10x1024x1024_S1x1024x1024_3_0_0
  have e4 : matOf (shapeCast S1024x1024 (View.ld x1 r0_5) shapeCasts_S1x1024x1024_S1024x1024) = stackOf x1 4 :=
    matOf_slab x1 4 (by decide) inb_S10x1024x1024_S1x1024x1024_4_0_0
  have e5 : matOf (shapeCast S1024x1024 (View.ld x1 r0_6) shapeCasts_S1x1024x1024_S1024x1024) = stackOf x1 5 :=
    matOf_slab x1 5 (by decide) inb_S10x1024x1024_S1x1024x1024_5_0_0
  have e6 : matOf (shapeCast S1024x1024 (View.ld x1 r0_7) shapeCasts_S1x1024x1024_S1024x1024) = stackOf x1 6 :=
    matOf_slab x1 6 (by decide) inb_S10x1024x1024_S1x1024x1024_6_0_0
  have e7 : matOf (shapeCast S1024x1024 (View.ld x1 r0_8) shapeCasts_S1x1024x1024_S1024x1024) = stackOf x1 7 :=
    matOf_slab x1 7 (by decide) inb_S10x1024x1024_S1x1024x1024_7_0_0
  have e8 : matOf (shapeCast S1024x1024 (View.ld x1 r0_9) shapeCasts_S1x1024x1024_S1024x1024) = stackOf x1 8 :=
    matOf_slab x1 8 (by decide) inb_S10x1024x1024_S1x1024x1024_8_0_0
  have e9 : matOf (shapeCast S1024x1024 (View.ld x1 r0_10) shapeCasts_S1x1024x1024_S1024x1024) = stackOf x1 9 :=
    matOf_slab x1 9 (by decide) inb_S10x1024x1024_S1x1024x1024_9_0_0
  rw [e0, e1, e2, e3, e4, e5, e6, e7, e8, e9]
  rfl

/-- The same at an index of the block: row `j 0`, column `j 1`. -/
theorem stored_apply (x0 : Vec Ideal S512x1024 .f32) (x1 : Vec Ideal S10x1024x1024 .bf16) (x2 : Vec Ideal S1024x1024 .bf16)
    (j : S512x1024.Idx) :
    out0_3 (F := Ideal) x0 x1 x2 j = decodeFolded (matOf x2) (chain (stackOf x1) (rowOf x0 (j 0))) (j 1) := by
  have h := stored_row x0 x1 x2 (j 0)
  generalize out0_3 (F := Ideal) x0 x1 x2 = O at h ⊢
  have e : O j = rowOf O (j 0) (j 1) := congrArg O (eq_ix2 j)
  exact e.trans (congrFun h (j 1))

end Cert.KernelIdeal.RowValue

end
-- ==== Proof.Select.lean ====
/-
  The selection by `perm`, word by word.

  For a word `w` of `perm` that reads, signed, inside `[0, 1024)`: the reference's "negative means from the end" wrap
  leaves it alone, its gather reads column `colOf w` (the word's value; the clamp to the last column does not bind), and
  the kernel's mask entry "the word of `d` equals `w`", as a float, is `1` at `d = colOf w` and `0` elsewhere.
-/
import Idealize.ShloMosaic.Lib.ValueIdx
import Idealize.ShloMosaic.Lib.Affine

noncomputable section

namespace Cert.Select

open Idealize.ShloMosaic Idealize.ShloMosaic.ValueIdx

/-- The column a word selects: its signed value, clamped into `[0, 1023]` (what a gather along an axis of extent
    1024 reads). -/
def colOf (w : BitVec 32) : Fin 1024 := ⟨min w.toInt.toNat (1024 - 1), by omega⟩

/-- The kernel's mask entry for row `d` and the word `w`, as a float. -/
def sel (w : BitVec 32) (d : Fin 1024) : EReal :=
  FloatOps.uitofp (F := Ideal) .f32 (IntOp.cmpi .eq (BitVec.ofNat 32 d.val) w)

/-- A word that reads signed in `[0, 1024)` is its unsigned value, below 1024. -/
theorem toNat_of_range {w : BitVec 32} (h0 : 0 ≤ w.toInt) (h1 : w.toInt < 1024) :
    w.toInt = (w.toNat : Int) ∧ w.toNat < 1024 := by
  have hlt := w.isLt
  rw [BitVec.toInt_eq_toNat_cond] at h0 h1 ⊢
  split at h0 <;> split <;> omega

/-- In range, the selected column's number is the word's value. -/
theorem colOf_val {w : BitVec 32} (h0 : 0 ≤ w.toInt) (h1 : w.toInt < 1024) : (colOf w).val = w.toNat := by
  obtain ⟨e, hlt⟩ := toNat_of_range h0 h1
  show min w.toInt.toNat (1024 - 1) = w.toNat
  rw [e, Int.toNat_natCast]
  omega

/-- THE MASK ENTRY: `1` on the selected column, `0` off it. -/
theorem sel_eq {w : BitVec 32} (h0 : 0 ≤ w.toInt) (h1 : w.toInt < 1024) (d : Fin 1024) :
    sel w d = if d = colOf w then 1 else 0 := by
  have hv := colOf_val h0 h1
  unfold sel
  by_cases hd : d = colOf w
  · rw [if_pos hd]
    have e : BitVec.ofNat 32 d.val = w := by
      rw [hd, hv]
      exact BitVec.eq_of_toNat_eq (by rw [BitVec.toNat_ofNat]; exact Nat.mod_eq_of_lt w.isLt)
    rw [IntOp.cmpi_eq.2 e]
    show (((1#1 : BitVec 1).toNat : ℝ) : EReal) = 1
    norm_num
  · rw [if_neg hd]
    have e : ¬ IntOp.cmpi .eq (BitVec.ofNat 32 d.val) w = 1#1 := by
      intro hc
      have hw := IntOp.cmpi_eq.1 hc
      apply hd
      apply Fin.ext
      rw [hv, ← hw, BitVec.toNat_ofNat]
      have := d.isLt
      omega
    rw [eq_zero_of_ne_one e]
    show (((0#1 : BitVec 1).toNat : ℝ) : EReal) = 0
    norm_num

/-- In range, the reference's wrap of a negative index does nothing. -/
theorem wrap_eq {w : BitVec 32} (h0 : 0 ≤ w.toInt) :
    Scalar.select (IntOp.cmpi .slt w 0#32) (IntOp.addi w 1024#32) w = w := by
  have e : ¬ IntOp.cmpi .slt w 0#32 = 1#1 := by
    intro hc
    have := IntOp.cmpi_slt.1 hc
    have z0 : (0#32 : BitVec 32).toInt = 0 := by decide
    omega
  rw [eq_zero_of_ne_one e, select_zero]

end Cert.Select

end
-- ==== Proof.KernelHost.lean ====
/-
  What the kernel's host operations hand to the region.

  Before the pallas_call, @main changes the weights' float format (the identity on the extended reals) and builds the
  folded decode matrix from `perm` and `W_dec`: the mask `[d = perm k]` over [1024 × 256] (an iota along the first axis
  compared with `perm` laid along the second), converted to a float (`1` or `0`), multiplied with the transpose of
  `W_dec`. Read by coordinates that matrix is `RowMaps.foldMat` of the selection `sel (perm k) d` and of `W_dec`.
-/
import proofs.«404807_j62981400428626_2_alg».proof.Proof.Gen.KernelIdeal.Frame
import proofs.«404807_j62981400428626_2_alg».proof.Proof.RowMaps
import proofs.«404807_j62981400428626_2_alg».proof.Proof.Coords
import proofs.«404807_j62981400428626_2_alg».proof.Proof.Select
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.HostValue

open Cert.KernelIdeal Cert.KernelIdeal.Gen Idealize.ShloMosaic Idealize.ShloMosaic.TcCoe Idealize.ShloMosaic.ValueIdx
open Idealize.ShloMosaic.StableHlo Idealize.SL.Sem Cert.RowMaps Cert.Coords Cert.Select

/-- The folded decode matrix as the host operations compute it from `perm` and `W_dec`. -/
def foldedC (perm : IVec S256 32) (wd : FVec Ideal S1024x256 .f32) : FVec Ideal S1024x1024 .bf16 :=
  truncf .bf16 (Host.dotGeneral (F := Ideal) dot_S1024x256_S256x1024_S1024x1024_1_0_0_1_n_n none
    (uitofp (F := Ideal) .f32 (cmpi .eq (iotaInDim S1024x256 32 0)
      (broadcastInDim S1024x256 ![0, 1] bcast_S1x256_S1024x256_0_1 (broadcastInDim S1x256 ![1] bcast_S256_S1x256_1 perm))))
    (transpose S256x1024 [1, 0] wd transposes_S1024x256_S256x1024_1_0)) bitsLt_bf16_f32

theorem lhsH_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhsH_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhsH_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhsH_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The host's product at `(d, j)`: the sum over `k` of the left operand at `(d, k)` times the right at `(k, j)`. -/
theorem hostDot_apply (l : FVec Ideal S1024x256 .f32) (r : FVec Ideal S256x1024 .f32) (d j : Fin 1024) :
    Host.dotGeneral (F := Ideal) dot_S1024x256_S256x1024_S1024x1024_1_0_0_1_n_n none l r (ix2 d j)
      = ∑ k : Fin 256, l (ix2 d k) * r (ix2 k j) := by
  simp only [Host.dotGeneral]
  rw [Ideal.dotGeneral_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 d j) ((ValueIdx.contrEquiv1 dot_S1024x256_S256x1024_S1024x1024_1_0_0_1_n_n 256 rfl rfl).symm k) = ix2 d k := funext fun a => Fin.ext (by
    match a with
    | ⟨0, _⟩ => exact lhsH_0 _ _
    | ⟨1, _⟩ => exact (lhsH_1 _ _).trans hk)
  have er : dot_S1024x256_S256x1024_S1024x1024_1_0_0_1_n_n.rhsIdx (ix2 d j) ((ValueIdx.contrEquiv1 dot_S1024x256_S256x1024_S1024x1024_1_0_0_1_n_n 256 rfl rfl).symm k) = ix2 k j := funext fun a => Fin.ext (by
    match a with
    | ⟨0, _⟩ => exact (rhsH_0 _ _).trans hk
    | ⟨1, _⟩ => exact rhsH_1 _ _)
  rw [el, er]

/-- `perm` laid along the second axis of [1024 × 256] reads, at `(d, k)`, `perm` at `k`. -/
theorem permGrid_apply (perm : IVec S256 32) (d : Fin 1024) (k : Fin 256) :
    broadcastInDim S1024x256 ![0, 1] bcast_S1x256_S1024x256_0_1 (broadcastInDim S1x256 ![1] bcast_S256_S1x256_1 perm) (ix2 d k)
      = perm (ix1 k) := by
  refine (broadcastInDim_apply _ bcast_S1x256_S1024x256_0_1 _ (ix2 d k) (ix2 (0 : Fin 1) k) (fun a => ?_)).trans ?_
  · match a with
    | ⟨0, _⟩ => show (0 : Nat) = if (1 : Nat) = 1 then 0 else d.val; rw [if_pos rfl]
    | ⟨1, _⟩ => show k.val = if (256 : Nat) = 1 then 0 else k.val; rw [if_neg (by decide)]
  · refine broadcastInDim_apply _ bcast_S256_S1x256_1 perm (ix2 (0 : Fin 1) k) (ix1 k) (fun a => ?_)
    match a with
    | ⟨0, _⟩ => show k.val = if (256 : Nat) = 1 then 0 else k.val; rw [if_neg (by decide)]

/-- THE FOLDED MATRIX BY COORDINATES: `C[d][j] = Σ_k sel (perm k) d · W_dec[j][k]`. -/
theorem matOf_foldedC (perm : IVec S256 32) (wd : FVec Ideal S1024x256 .f32) :
    matOf (foldedC perm wd) = foldMat (fun d k => sel (perm (ix1 k)) d) (matOf wd) := by
  funext d j
  unfold matOf foldedC foldMat
  rw [truncf_apply, hostDot_apply]
  refine Finset.sum_congr rfl fun k _ => ?_
  have e1 : uitofp (F := Ideal) .f32 (cmpi .eq (iotaInDim S1024x256 32 0)
      (broadcastInDim S1024x256 ![0, 1] bcast_S1x256_S1024x256_0_1 (broadcastInDim S1x256 ![1] bcast_S256_S1x256_1 perm))) (ix2 d k)
      = sel (perm (ix1 k)) d := by
    show FloatOps.uitofp (F := Ideal) .f32 (IntOp.cmpi .eq (BitVec.ofNat 32 d.val) (broadcastInDim S1024x256 ![0, 1] bcast_S1x256_S1024x256_0_1 (broadcastInDim S1x256 ![1] bcast_S256_S1x256_1 perm) (ix2 d k))) = _
    rw [permGrid_apply]
    rfl
  have e2 : transpose S256x1024 [1, 0] wd transposes_S1024x256_S256x1024_1_0 (ix2 k j) = wd (ix2 j k) :=
    transpose_apply [1, 0] wd transposes_S1024x256_S256x1024_1_0 (ix2 k j) (ix2 j k) (fun b => match b with
      | ⟨0, _⟩ => rfl
      | ⟨1, _⟩ => rfl)
  rw [e1, e2]

variable (m : (ℓ : Loc nD τ sig) → Buf (Elt Ideal) ℓ)

/-- The region finds the weights with their float format changed: the same extended reals. -/
theorem V_main_v0 (c : Dev nD) :
    (V m c main_v0 : S10x1024x1024.Idx → EReal) = (m ((c : Thread nD τ).loc main_arg1) : S10x1024x1024.Idx → EReal) := by
  dsimp only [Gen.V, Gen.hostOps0]
  after_results
  rfl

/-- The region finds, as its third operand, the folded decode matrix of the launch's `perm` and `W_dec`. -/
theorem V_main_v8 (c : Dev nD) :
    (V m c main_v8 : S1024x1024.Idx → EReal) = foldedC (m ((c : Thread nD τ).loc main_arg3)) (m ((c : Thread nD τ).loc main_arg2)) := by
  dsimp only [Gen.V, Gen.hostOps0]
  after_results
  rfl

end Cert.KernelIdeal.HostValue

end
-- ==== Proof.KernelArray.lean ====
/-
  From the kernel's blocks to its result array.

  The grid has sixteen points; point `t` works on rows `512 t … 512 t + 511` of `x` and of the result, and every point
  sees the whole weight stack and the whole folded decode matrix. Row `p` of what point `t` writes back is the body's
  row map (KernelRow) of row `512 t + p` of `x`; the sixteen blocks tile the result, so row `r` of the result array is
  `decodeFolded C (chain W (row r of x))`, with `C` the folded decode matrix the host operations built (KernelHost).
-/
import proofs.«404807_j62981400428626_2_alg».proof.Proof.Gen.KernelIdeal.Value
import proofs.«404807_j62981400428626_2_alg».proof.Proof.KernelRow
import proofs.«404807_j62981400428626_2_alg».proof.Proof.KernelHost
import Idealize.ShloMosaic.Lib.Pipeline.Value

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.RowMaps Cert.Coords Cert.Select Cert.KernelIdeal.RowValue Cert.KernelIdeal.HostValue

variable (m : (ℓ : Loc nD τ sig) → Buf (Elt Ideal) ℓ) (ρ : Dev nD → PrngReg)

/-- The kernel's result array as one function of the four argument arrays: row by row, the folded decode of the chain
    of the same row of `x`. -/
def kernelOut (x : FVec Ideal S8192x1024 .f32) (W : FVec Ideal S10x1024x1024 .f32) (wd : FVec Ideal S1024x256 .f32)
    (perm : IVec S256 32) : S8192x1024.Idx → EReal :=
  fun i => decodeFolded (matOf (foldedC perm wd)) (chain (stackOf W) (rowOf x (i 0))) (i 1)

/-- The printed index maps over the sixteen points: the row blocks move with the point, the rest stays put. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at a point, at their literal types. -/
abbrev xblk (c : Dev nD) (t : Fin cfg0.N) : Vec Ideal S512x1024 .f32 := iblk m c 0 t
abbrev wblk (c : Dev nD) (t : Fin cfg0.N) : Vec Ideal S10x1024x1024 .bf16 := iblk m c 1 t
abbrev cblk (c : Dev nD) (t : Fin cfg0.N) : Vec Ideal S1024x1024 .bf16 := iblk m c 2 t

/-- Row `p` of point `t`'s block of `x` is row `512 t + p` of `x`. -/
theorem xblk_row (c : Dev nD) (t : Fin cfg0.N) (p : Fin 512) (r : Fin 8192) (hr : r.val = t.val * 512 + p.val) :
    rowOf (xblk m c t) p = rowOf (m ((c : Thread nD τ).loc main_arg0) : S8192x1024.Idx → EReal) r := by
  obtain ⟨e0, e1, -⟩ := idx_facts t
  funext d
  show V m c main_arg0 (((cfg0.win 0).blk t).view.emb (ix2 p d)) = (m ((c : Thread nD τ).loc main_arg0) : S8192x1024.Idx → EReal) (ix2 r d)
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- Every point's block of the weight stack is the whole stack, as launched. -/
theorem wblk_eq (c : Dev nD) (t : Fin cfg0.N) :
    stackOf (wblk m c t) = stackOf (m ((c : Thread nD τ).loc main_arg1) : S10x1024x1024.Idx → EReal) := by
  obtain ⟨-, -, e0, e1, e2, -⟩ := idx_facts t
  funext n o d
  show V m c main_v0 (((cfg0.win 1).blk t).view.emb (ix3 n o d)) = (m ((c : Thread nD τ).loc main_arg1) : S10x1024x1024.Idx → EReal) (ix3 n o d)
  rw [← congrFun (V_main_v0 m c) (ix3 n o d)]
  refine congrArg _ (funext fun a => Fin.ext ?_)
  match a with
  | ⟨0, _⟩ => show win0_1.index t (0 : Fin 3) * 10 + 1 * n.val = n.val; rw [e0]; omega
  | ⟨1, _⟩ => show win0_1.index t (1 : Fin 3) * 1024 + 1 * o.val = o.val; rw [e1]; omega
  | ⟨2, _⟩ => show win0_1.index t (2 : Fin 3) * 1024 + 1 * d.val = d.val; rw [e2]; omega

/-- Every point's block of the third operand is the whole folded decode matrix. -/
theorem cblk_eq (c : Dev nD) (t : Fin cfg0.N) :
    matOf (cblk m c t) = matOf (foldedC (m ((c : Thread nD τ).loc main_arg3)) (m ((c : Thread nD τ).loc main_arg2))) := by
  obtain ⟨-, -, -, -, -, e0, e1, -⟩ := idx_facts t
  funext d j
  show V m c main_v8 (((cfg0.win 2).blk t).view.emb (ix2 d j)) = foldedC _ _ (ix2 d j)
  rw [← congrFun (V_main_v8 m c) (ix2 d j)]
  refine congrArg _ (funext fun a => Fin.ext ?_)
  match a with
  | ⟨0, _⟩ => show win0_2.index t (0 : Fin 2) * 1024 + 1 * d.val = d.val; rw [e0]; omega
  | ⟨1, _⟩ => show win0_2.index t (1 : Fin 2) * 1024 + 1 * j.val = j.val; rw [e1]; omega

/-- WHAT POINT `t` WRITES BACK is block `t` of `kernelOut` of the argument arrays: at an index `j` of the block, the body's
    row map of row `j 0` of the point's block of `x`, which is row `512 t + j 0` of `x`, at column `j 1`. -/
theorem flushed_eq (c : Dev nD) (t : Fin cfg0.N) :
    (dats m 0 c).flushed 3 t = ((cfg0.win 3).blk t).view.read (Elt Ideal)
      (kernelOut (m ((c : Thread nD τ).loc main_arg0)) (m ((c : Thread nD τ).loc main_arg1))
        (m ((c : Thread nD τ).loc main_arg2)) (m ((c : Thread nD τ).loc main_arg3))) := by
  show (cfg0.win 3).cut (grid0.coords t) ((dats m 0 c).after 3 t) = _
  rw [after0_3]
  obtain ⟨-, -, -, -, -, -, -, e0, e1⟩ := idx_facts t
  funext j
  have ht : t.val < 16 := t.isLt
  have hj0 : (j 0).val < 512 := (j 0).isLt
  have hj1 : (j 1).val < 1024 := (j 1).isLt
  refine (stored_apply (xblk m c t) (wblk m c t) (cblk m c t) ((cfg0.win 3).xinj (grid0.coords t) j)).trans ?_
  rw [wblk_eq, cblk_eq]
  have h1 : rowOf (xblk m c t) ((cfg0.win 3).xinj (grid0.coords t) j 0)
      = rowOf (m ((c : Thread nD τ).loc main_arg0) : S8192x1024.Idx → EReal) (((cfg0.win 3).blk t).view.emb j 0) :=
    xblk_row m c t ((cfg0.win 3).xinj (grid0.coords t) j 0) (((cfg0.win 3).blk t).view.emb j 0) (by
      show win0_3.index t (0 : Fin 2) * 512 + 1 * (j 0).val = t.val * 512 + (j 0).val
      rw [e0]; omega)
  have h2 : ((cfg0.win 3).xinj (grid0.coords t) j 1 : Fin 1024) = ((cfg0.win 3).blk t).view.emb j 1 := Fin.ext (by
    show (j 1).val = win0_3.index t (1 : Fin 2) * 1024 + 1 * (j 1).val
    rw [e1]; omega)
  rw [h1]
  exact congrArg _ h2

/-- An index of the result is in point `t`'s block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v9).slice (win0_3.rect t)).set ↔ _
  rw [View.set_slice_whole, Rect.mem_set_unit]
  exact Iff.rfl

/-- Every row of the result lies in the block of the point `row / 512`. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  obtain ⟨-, -, -, -, -, -, -, e0, e1⟩ := idx_facts t
  refine ⟨t, flush0_3 t, ?_⟩
  rw [mem_blk]
  intro a
  have htv : t.val = (i 0).val / 512 := rfl
  match a with
  | ⟨0, _⟩ => show win0_3.index t (0 : Fin 2) * 512 ≤ (i 0).val ∧ (i 0).val < win0_3.index t (0 : Fin 2) * 512 + 512; rw [e0, htv]; omega
  | ⟨1, _⟩ => show win0_3.index t (1 : Fin 2) * 1024 ≤ (i 1).val ∧ (i 1).val < win0_3.index t (1 : Fin 2) * 1024 + 1024; rw [e1]; omega

/-- THE RESULT ARRAY after the run. -/
theorem final (c : Dev nD) : (dats m 0 c).arrAt 3 cfg0.N
    = kernelOut (m ((c : Thread nD τ).loc main_arg0)) (m ((c : Thread nD τ).loc main_arg1))
        (m ((c : Thread nD τ).loc main_arg2)) (m ((c : Thread nD τ).loc main_arg3)) :=
  (dats m 0 c).arrAt_eq_of_cover 3 _ (fun t _ => flushed_eq m c t) cover

/-- The kernel's run, read: the result at `kernelOut` of the arguments, the arguments unchanged. -/
theorem run : θ_run defs (onTc (τ := τ) (main (F := Ideal))) ⟨m, fun _ => 0, ρ⟩ fun r => ∀ c : Dev nD,
      r.2.mem ((c : Thread nD τ).loc main_v9) = kernelOut (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.LibColGather.lean ====
/-
  A column gather read at an index.

  jnp's `table[:, idx]` of a matrix `table : [R, C]` at a vector of column numbers lowers to a `stablehlo.gather`
  whose start indices are the column `[n, 1]` of column numbers: operand axis 1 is collapsed and is the one
  start-indexed axis, axis 0 of the result is the one offset axis and carries the whole column (slice sizes `[R, 1]`),
  axis 1 of the result is the batch axis and runs over the column numbers. Result element `(r, k)` is then the
  table's entry `(r, c)`, where `c` is the `k`-th column number read as a signed integer and clamped into
  `[0, C - 1]`: a column gather never reads outside the table, a negative column number reads column 0 and one past
  the end reads the last column.
-/
import Idealize.ShloMosaic.Lib.ValueIdx

noncomputable section

namespace Idealize.ShloMosaic.ColGather

open Idealize.ShloMosaic Idealize.ShloMosaic.ValueIdx

variable {α : Type}

/-- The dimension numbers of a column gather from a table `[R, C]` by a column `[n, 1]` of column numbers into
    `[R, n]`; their conditions `wf` are decided on a program's literal shapes. -/
abbrev colDims (R C n : Nat)
    (wf : GatherDims.WF ⟨2, ![R, C]⟩ ⟨2, ![n, 1]⟩ ⟨2, ![R, n]⟩ [0] [1] [] [1] [] 1 ![R, 1]) :
    GatherDims ⟨2, ![R, C]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE COLUMN GATHER READ AT `(r, k)`: the table at row `r` and column `idx[k, 0]`, read signed and clamped into
    `[0, C - 1]`. On the row axis the start is zero (the axis is not start-indexed) and the offset is the result's own
    row; on the column axis the start is the clamped column number and nothing is added to it (the axis is collapsed
    and there is no batching axis). -/
theorem gather_cols_apply {R C n w : Nat} (hC : 0 < C)
    (wf : GatherDims.WF ⟨2, ![R, C]⟩ ⟨2, ![n, 1]⟩ ⟨2, ![R, n]⟩ [0] [1] [] [1] [] 1 ![R, 1])
    (x : (⟨2, ![R, C]⟩ : Shape).Idx → α) (idx : IVec ⟨2, ![n, 1]⟩ w) (r : Fin R) (k : Fin n) :
    Host.gather (colDims R C n wf) x idx (ix2 r k)
      = x (ix2 r ⟨min (idx (ix2 k (0 : Fin 1))).toInt.toNat (C - 1), by omega⟩) := by
  unfold Host.gather
  congr 1
  funext a
  refine Fin.ext ?_
  match a with
  | ⟨0, _⟩ =>
    show (colDims R C n wf).start (ix2 r k) idx 0 + (colDims R C n wf).batchCoord (ix2 r k) 0
        + (colDims R C n wf).offCoord (ix2 r k) 0 = r.val
    rw [GatherDims.batchCoord_eq_zero _ _ _ List.not_mem_nil]
    unfold GatherDims.start
    have h0 : ¬ (0 : Fin 2) ∈ ([1] : List (Fin 2)) := by decide
    rw [dif_neg (show ¬ (0 : Fin 2) ∈ (colDims R C n wf).startIndexMap from h0)]
    unfold GatherDims.offCoord
    rw [dif_pos ((GatherDims.mem_sKept _ _).mpr ⟨h0, List.not_mem_nil⟩), Nat.zero_add]
    rfl
  | ⟨1, _⟩ =>
    show (colDims R C n wf).start (ix2 r k) idx 1 + (colDims R C n wf).batchCoord (ix2 r k) 1
        + (colDims R C n wf).offCoord (ix2 r k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R C n wf).startIndexMap from List.mem_singleton.mpr rfl)]
    have hsi : (colDims R C n wf).siIdx (ix2 r k) ⟨List.idxOf (1 : Fin 2) (colDims R C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Idealize.ShloMosaic.ColGather

end
-- ==== Proof.RefRow.lean ====
/-
  The reference, one row at a time.

  The reference slices weight `n` out of the stack, transposes it and multiplies: `h ↦ h · Wₙᵀ`, a linear layer
  (`RowMaps.layer`) of every row, eleven times (weights 0 to 8, 8 again, 9). It then wraps negative entries of `perm` from
  the end, gathers the selected columns of the result (a column gather clamps the column number into the table) and
  multiplies with the transpose of `W_dec`: `out[r][j] = Σ_k h[r][col k] · W_dec[j][k]` (`RowMaps.decodeGather`).
-/
import proofs.«404807_j62981400428626_2_alg».proof.Proof.Gen.ReferenceIdeal.Read
import proofs.«404807_j62981400428626_2_alg».proof.Proof.RowMaps
import proofs.«404807_j62981400428626_2_alg».proof.Proof.Coords
import proofs.«404807_j62981400428626_2_alg».proof.Proof.Select
import proofs.«404807_j62981400428626_2_alg».proof.Proof.LibColGather
import Idealize.ShloMosaic.Lib.ValueIdx
import Idealize.ShloMosaic.Lib.Pipeline.Value
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic Idealize.ShloMosaic.ValueIdx
open Cert.RowMaps Cert.Coords Cert.Select

/-! ## One layer -/

/-- The square product of the reference at `(b, o)`: the sum over `k` of the left operand at `(b, k)` times the right at
    `(k, o)`. -/
theorem hostDotR_apply (l : FVec Ideal S8192x1024 .f32) (r : FVec Ideal S1024x1024 .f32) (b : Fin 8192) (o : Fin 1024) :
    Host.dotGeneral (F := Ideal) dot_S8192x1024_S1024x1024_S8192x1024_1_0_0_1_n_n none l r (ix2 b o)
      = ∑ k : Fin 1024, l (ix2 b k) * r (ix2 k o) := by
  simp only [Host.dotGeneral]
  rw [Ideal.dotGeneral_apply, ← Equiv.sum_comp (ValueIdx.contrEquiv1 dot_S8192x1024_S1024x1024_S8192x1024_1_0_0_1_n_n 1024 rfl rfl).symm]
  refine Finset.sum_congr rfl fun k _ => ?_
  have hk := ValueIdx.contrEquiv1_symm_val dot_S8192x1024_S1024x1024_S8192x1024_1_0_0_1_n_n 1024 rfl rfl k
  have el : dot_S8192x1024_S1024x1024_S8192x1024_1_0_0_1_n_n.lhsIdx (ix2 b o) ((ValueIdx.contrEquiv1 dot_S8192x1024_S1024x1024_S8192x1024_1_0_0_1_n_n 1024 rfl rfl).symm k) = ix2 b k := funext fun a => Fin.ext (by
    match a with
    | ⟨0, _⟩ => exact lhs_main_v3_0 _ _
    | ⟨1, _⟩ => exact (lhs_main_v3_1 _ _).trans hk)
  have er : dot_S8192x1024_S1024x1024_S8192x1024_1_0_0_1_n_n.rhsIdx (ix2 b o) ((ValueIdx.contrEquiv1 dot_S8192x1024_S1024x1024_S8192x1024_1_0_0_1_n_n 1024 rfl rfl).symm k) = ix2 k o := funext fun a => Fin.ext (by
    match a with
    | ⟨0, _⟩ => exact (rhs_main_v3_0 _ _).trans hk
    | ⟨1, _⟩ => exact rhs_main_v3_1 _ _)
  rw [el, er]

/-- Weight `n` sliced out of the stack, reshaped to a square and transposed reads, at `(k, o)`, the stack at `(n, o, k)`. -/
theorem weightT_apply (x1 : FVec Ideal S10x1024x1024 .f32) (n : Nat) (hn : n < 10)
    (hs : S10x1024x1024.Slices ![n, 0, 0] S1x1024x1024) (k o : Fin 1024) :
    transpose S1024x1024 [1, 0] (shapeCast S1024x1024 (extractStridedSlice S1x1024x1024 ![n, 0, 0] x1 hs)
      shapeCasts_S1x1024x1024_S1024x1024) transposes_S1024x1024_S1024x1024_1_0 (ix2 k o) = x1 (ix3 ⟨n, hn⟩ o k) := by
  refine (transpose_apply [1, 0] _ transposes_S1024x1024_S1024x1024_1_0 (ix2 k o) (ix2 o k) (fun b => match b with
    | ⟨0, _⟩ => rfl
    | ⟨1, _⟩ => rfl)).trans ?_
  refine (shapeCast_apply _ shapeCasts_S1x1024x1024_S1024x1024 (ix2 o k) (ix3 (0 : Fin 1) o k) ?_).trans ?_
  · rw [Shape.rowMajor_val_three, Shape.rowMajor_val_two]
    show (0 * 1024 + o.val) * 1024 + k.val = o.val * 1024 + k.val
    omega
  · exact extractStridedSlice_apply ![n, 0, 0] x1 hs (ix3 (0 : Fin 1) o k) (ix3 (⟨n, hn⟩ : Fin 10) o k) (fun a => match a with
      | ⟨0, _⟩ => by show n = n + 0; omega
      | ⟨1, _⟩ => by show o.val = 0 + o.val; omega
      | ⟨2, _⟩ => by show k.val = 0 + k.val; omega)

/-- One layer of the reference: slice weight `n`, reshape, transpose, multiply. -/
def refLayer (n : Nat) (hs : S10x1024x1024.Slices ![n, 0, 0] S1x1024x1024) (x1 : FVec Ideal S10x1024x1024 .f32)
    (h : FVec Ideal S8192x1024 .f32) : FVec Ideal S8192x1024 .f32 :=
  Host.dotGeneral (F := Ideal) dot_S8192x1024_S1024x1024_S8192x1024_1_0_0_1_n_n none h
    (transpose S1024x1024 [1, 0] (shapeCast S1024x1024 (extractStridedSlice S1x1024x1024 ![n, 0, 0] x1 hs)
      shapeCasts_S1x1024x1024_S1024x1024) transposes_S1024x1024_S1024x1024_1_0)

/-- Each of its rows is the linear layer, with weight `n`, of the operand's row. -/
theorem refLayer_row (n : Nat) (hn : n < 10) (hs : S10x1024x1024.Slices ![n, 0, 0] S1x1024x1024)
    (x1 : FVec Ideal S10x1024x1024 .f32) (h : FVec Ideal S8192x1024 .f32) (r : Fin 8192) :
    rowOf (refLayer n hs x1 h) r = layer (rowOf h r) (stackOf x1 ⟨n, hn⟩) := by
  funext o
  unfold rowOf refLayer layer stackOf
  rw [hostDotR_apply]
  exact Finset.sum_congr rfl fun k _ => by rw [weightT_apply x1 n hn hs k o]

/-! ## The eleven layers -/

/-- The reference's eleven products are eleven layers, weights 0 to 8, 8 again, 9. -/
theorem v43_layers (x0 : FVec Ideal S8192x1024 .f32) (x1 : FVec Ideal S10x1024x1024 .f32) :
    val_main_v43 (F := Ideal) x0 x1 =
      refLayer 9 slices_S10x1024x1024_S1x1024x1024_9_0_0 x1 (refLayer 8 slices_S10x1024x1024_S1x1024x1024_8_0_0 x1
      (refLayer 8 slices_S10x1024x1024_S1x1024x1024_8_0_0 x1 (refLayer 7 slices_S10x1024x1024_S1x1024x1024_7_0_0 x1
      (refLayer 6 slices_S10x1024x1024_S1x1024x1024_6_0_0 x1 (refLayer 5 slices_S10x1024x1024_S1x1024x1024_5_0_0 x1
      (refLayer 4 slices_S10x1024x1024_S1x1024x1024_4_0_0 x1 (refLayer 3 slices_S10x1024x1024_S1x1024x1024_3_0_0 x1
      (refLayer 2 slices_S10x1024x1024_S1x1024x1024_2_0_0 x1 (refLayer 1 slices_S10x1024x1024_S1x1024x1024_1_0_0 x1
      (refLayer 0 slices_S10x1024x1024_S1x1024x1024_0_0_0 x1 x0)))))))))) := rfl

/-- So each row of the eleventh product is the chain of the same row of `x`. -/
theorem v43_row (x0 : FVec Ideal S8192x1024 .f32) (x1 : FVec Ideal S10x1024x1024 .f32) (r : Fin 8192) :
    rowOf (val_main_v43 (F := Ideal) x0 x1) r = chain (stackOf x1) (rowOf x0 r) := by
  rw [v43_layers]
  rw [refLayer_row 9 (by decide), refLayer_row 8 (by decide), refLayer_row 8 (by decide), refLayer_row 7 (by decide),
    refLayer_row 6 (by decide), refLayer_row 5 (by decide), refLayer_row 4 (by decide), refLayer_row 3 (by decide),
    refLayer_row 2 (by decide), refLayer_row 1 (by decide), refLayer_row 0 (by decide)]
  rfl

/-! ## The gather and the decode -/

/-- The word of `perm` at `k` after the reference's wrap of a negative index. -/
def wrapped (perm : IVec S256 32) (k : Fin 256) : BitVec 32 :=
  Scalar.select (IntOp.cmpi .slt (perm (ix1 k)) 0#32) (IntOp.addi (perm (ix1 k)) 1024#32) (perm (ix1 k))

/-- The start-index column the gather is given reads, at `(k, 0)`, the wrapped word. -/
theorem v49_apply (perm : IVec S256 32) (k : Fin 256) :
    val_main_v49 (F := Ideal) perm (ix2 k (0 : Fin 1)) = wrapped perm k := by
  rw [val_main_v49_apply]
  have e : idx_main_v49 (ix2 k (0 : Fin 1)) = ix1 k := funext fun a => Fin.ext (by
    match a with
    | ⟨0, _⟩ => rfl)
  rw [e]
  rfl

/-- The gather reads, at `(r, k)`, its table at row `r` and the column the wrapped word selects. -/
theorem v50_apply (x0 : FVec Ideal S8192x1024 .f32) (x1 : FVec Ideal S10x1024x1024 .f32) (perm : IVec S256 32)
    (r : Fin 8192) (k : Fin 256) :
    val_main_v50 (F := Ideal) x0 x1 perm (ix2 r k) = val_main_v43 (F := Ideal) x0 x1 (ix2 r (colOf (wrapped perm k))) := by
  unfold val_main_v50
  rw [← v49_apply]
  exact ColGather.gather_cols_apply (by decide) gather_S8192x1024_S256x1_S8192x256_0_1_n_n_1_1_81921_wf
    (val_main_v43 (F := Ideal) x0 x1) (val_main_v49 (F := Ideal) perm) r k

/-- THE REFERENCE'S RESULT, row by row: the gathered decode of the chain of the same row of `x`. -/
theorem v52_row (x0 : FVec Ideal S8192x1024 .f32) (x1 : FVec Ideal S10x1024x1024 .f32) (x2 : FVec Ideal S1024x256 .f32)
    (perm : IVec S256 32) (r : Fin 8192) :
    rowOf (val_main_v52 (F := Ideal) x0 x1 x2 perm) r
      = decodeGather (fun k => colOf (wrapped perm k)) (matOf x2) (chain (stackOf x1) (rowOf x0 r)) := by
  funext j
  show val_main_v52 (F := Ideal) x0 x1 x2 perm (ix2 r j) = _
  rw [val_main_v52_apply]
  unfold decodeGather
  refine Finset.sum_congr rfl fun k _ => ?_
  have el : lidx_main_v52 (ix2 r j) k = ix2 r k := funext fun a => Fin.ext (by
    match a with
    | ⟨0, _⟩ => rfl
    | ⟨1, _⟩ => rfl)
  have er : ridx_main_v52 (ix2 r j) k = ix2 k j := funext fun a => Fin.ext (by
    match a with
    | ⟨0, _⟩ => rfl
    | ⟨1, _⟩ => rfl)
  have et : idx_main_v51 (ix2 k j) = ix2 j k := funext fun a => Fin.ext (by
    match a with
    | ⟨0, _⟩ => rfl
    | ⟨1, _⟩ => rfl)
  rw [el, er, v50_apply, val_main_v51_apply, et, ← v43_row]
  rfl

end Cert.ReferenceIdeal.RowValue

end
-- ==== Proof.PreRead.lean ====
/-
  The precondition read back.

  The precondition is the conjunction of four `all`s: every entry of `x`, of the weights and of `W_dec` has absolute value
  below `+∞`, and every entry of `perm` is, read signed, at least `0` and below `1024`. An extended real whose absolute
  value is below `+∞` is a real number; so under the precondition the three float inputs are arrays of reals and `perm`
  selects columns inside `[0, 1024)`.
-/
import proofs.«404807_j62981400428626_2_alg».proof.Pre_finite_inputs
import proofs.«404807_j62981400428626_2_alg».proof.Proof.RowMaps
import Idealize.ShloMosaic.Lib.ValueIdx
import Idealize.ShloMosaic.Lib.IdealHost
import Idealize.ShloMosaic.Lib.ReduceAll

noncomputable section

namespace Cert.PreRead

open Cert.Pre_finite_inputs Idealize.ShloMosaic Idealize.ShloMosaic.ValueIdx Cert.RowMaps

variable [Cert.Pre_finite_inputs.Facts]
open Cert.Pre_finite_inputs.Facts

instance : Subsingleton S_.Idx := ⟨fun a b => funext fun d => d.elim0⟩

/-- An extended real whose absolute value compares below the pattern of `+∞` is a real number. -/
theorem real_of_abs_lt (a : EReal)
    (h : FloatOps.cmpf (F := Ideal) (φ := .f32) .olt (FloatOps.hostAbsf a) (Ideal.ofBits .f32 0x7F800000#32) = 1#1) :
    ∃ r : ℝ, a = (r : EReal) := by
  induction a using EReal.rec with
  | bot => exfalso; revert h; simp [Ideal.cmpf_def, Ideal.cmp, Ideal.absf_def, Ideal.ofBits, Ideal.ieee]
  | coe r => exact ⟨r, rfl⟩
  | top => exfalso; revert h; simp [Ideal.cmpf_def, Ideal.cmp, Ideal.absf_def, Ideal.ofBits, Ideal.ieee]

/-- One `all(|v| < inf)` conjunct, for an array of any shape: every entry is real. -/
theorem real_of_all {s : Shape} (v : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf v) (broadcastInDim s ![] hb (constant (F := Ideal) S_ .f32 0x7F800000#32)))
      (constantI S_ 1 1#1) hr hu ix0 = 1#1) : Real1 v := by
  intro i
  have hi := Host.reduce_andi_all _ _ hr hu ix0 e i
  refine real_of_abs_lt (v i) ?_
  rw [cmpf_apply, broadcastInDim_scalar_apply] at hi
  exact hi

/-- THE PRECONDITION READ BACK. -/
theorem read (x : FVec Ideal S8192x1024 .f32) (W : FVec Ideal S10x1024x1024 .f32) (D : FVec Ideal S1024x256 .f32)
    (perm : IVec S256 32) (h : Cert.Pre_finite_inputs.fn (F := Ideal) x W D perm = fun _ => 1#1) :
    Real1 x ∧ Real1 W ∧ Real1 D ∧ ∀ k : Fin 256, 0 ≤ (perm (ix1 k)).toInt ∧ (perm (ix1 k)).toInt < 1024 := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨real_of_all x bcast_S_S8192x1024 reducesTo_S8192x1024_S_d0_1 h_S_ h1,
    real_of_all W bcast_S_S10x1024x1024 reducesTo_S10x1024x1024_S_d0_1_2 h_S_ h2,
    real_of_all D bcast_S_S1024x256 reducesTo_S1024x256_S_d0_1 h_S_ h3, fun k => ?_⟩
  have hk := Host.reduce_andi_all _ _ reducesTo_S256_S_d0 h_S_ ix0 h4 (ix1 k)
  obtain ⟨hge, hlt⟩ := IntOp.andi_eq_one.1 hk
  have hge' : IntOp.cmpi .sge (perm (ix1 k)) (0#32) = 1#1 := hge
  have hlt' : IntOp.cmpi .slt (perm (ix1 k)) (1024#32) = 1#1 := hlt
  have a := IntOp.cmpi_sge.1 hge'
  have b := IntOp.cmpi_slt.1 hlt'
  have z0 : (0#32 : BitVec 32).toInt = 0 := by decide
  have z1 : (1024#32 : BitVec 32).toInt = 1024 := by decide
  rw [z0] at a
  rw [z1] at b
  exact ⟨a, b⟩

end Cert.PreRead

end
-- ==== Proof.Bridge.lean ====
/-
  The two results are one function of the arguments, under the precondition.

  Row by row the kernel's result is `decodeFolded C (chain W row)` with `C` the fold of the mask `sel (perm k) d` and
  `W_dec`, and the reference's is `decodeGather col W_dec (chain W row)` with `col k` the column the wrapped word of
  `perm` selects. Under the precondition the inputs are real, so the chain of a row is real, and every word of `perm` is
  in `[0, 1024)`, so the wrap does nothing and the mask is `1` exactly on the selected column: the law of RowMaps applies.
-/
import proofs.«404807_j62981400428626_2_alg».proof.Proof.KernelArray
import proofs.«404807_j62981400428626_2_alg».proof.Proof.RefRow
import proofs.«404807_j62981400428626_2_alg».proof.Proof.PreRead

noncomputable section

namespace Cert.Bridge

open Idealize.ShloMosaic Idealize.ShloMosaic.ValueIdx Cert.RowMaps Cert.Coords Cert.Select

variable [Cert.Pre_finite_inputs.Facts]

/-- Under the precondition, the kernel's result array is the reference's. -/
theorem kernelOut_eq (x : FVec Ideal Cert.KernelIdeal.S8192x1024 .f32) (W : FVec Ideal Cert.KernelIdeal.S10x1024x1024 .f32)
    (wd : FVec Ideal Cert.KernelIdeal.S1024x256 .f32) (perm : IVec Cert.KernelIdeal.S256 32)
    (hpre : Cert.Pre_finite_inputs.fn (F := Ideal) x W wd perm = fun _ => 1#1) :
    Cert.KernelIdeal.ArrayValue.kernelOut x W wd perm = Cert.ReferenceIdeal.Read.val_main_v52 (F := Ideal) x W wd perm := by
  obtain ⟨hx, hW, hD, hp⟩ := Cert.PreRead.read x W wd perm hpre
  refine ext_rows fun r => ?_
  rw [Cert.ReferenceIdeal.RowValue.v52_row]
  show decodeFolded (matOf (Cert.KernelIdeal.HostValue.foldedC perm wd)) (chain (stackOf W) (rowOf x r)) = _
  rw [Cert.KernelIdeal.HostValue.matOf_foldedC]
  refine decodeFolded_eq_decodeGather (fun k => colOf (Cert.ReferenceIdeal.RowValue.wrapped perm k)) (fun d k => ?_)
    (fun j k => hD (ix2 j k)) (chain_real (fun n o d => hW (ix3 n o d)) (fun d => hx (ix2 r d)))
  have hw : Cert.ReferenceIdeal.RowValue.wrapped perm k = perm (ix1 k) := wrap_eq (hp k).1
  rw [hw]
  exact sel_eq (hp k).1 (hp k).2 d

end Cert.Bridge

end
-- ==== Proof.lean ====
/-
  The kernel computes, for every row `h₀` of `x`, eleven linear layers `h ↦ h · Wᵀ` (weights 0 to 8, weight 8 a second
  time, weight 9) and then one more square product with the matrix `C[d][j] = Σ_k [d = perm k] · W_dec[j][k]`, which the
  host operations in front of the pallas_call build from `perm` and `W_dec`. The reference computes the same eleven layers,
  gathers the columns `perm k` of the result and contracts with `W_dec`: `out[j] = Σ_k h[perm k] · W_dec[j][k]`.

  Over the extended reals the two decodes agree when every number is real and every entry of `perm` is a column number in
  `[0, 1024)`: then `Σ_d h[d] · C[d][j] = Σ_k (Σ_d h[d] · [d = perm k]) · W_dec[j][k] = Σ_k h[perm k] · W_dec[j][k]`. The
  precondition says exactly that (finite float inputs; `0 ≤ perm < 1024`), and layers of real weights keep rows real.

  The modules: RowMaps (the mathematics on one row), Coords (arrays read by coordinates), Select (a word of `perm` in range),
  KernelRow (the body's twelve products as the row map), KernelHost (the folded matrix the host operations build),
  KernelArray (sixteen row blocks tile the result), RefRow (the reference row by row), PreRead (the precondition read back),
  Bridge (the two results are one function). The three frames are the generated ones; the idealization rewrote nothing.
-/
import proofs.«404807_j62981400428626_2_alg».proof.Defs
import proofs.«404807_j62981400428626_2_alg».proof.Proof.Gen.Kernel
import proofs.«404807_j62981400428626_2_alg».proof.Proof.Gen.Kernel.Skeleton
import proofs.«404807_j62981400428626_2_alg».proof.Proof.Gen.Kernel.Launch
import proofs.«404807_j62981400428626_2_alg».proof.Proof.Gen.Kernel.Points
import proofs.«404807_j62981400428626_2_alg».proof.Proof.Gen.Kernel.Frame
import proofs.«404807_j62981400428626_2_alg».proof.Proof.Gen.KernelIdeal
import proofs.«404807_j62981400428626_2_alg».proof.Proof.Gen.KernelIdeal.Skeleton
import proofs.«404807_j62981400428626_2_alg».proof.Proof.Gen.KernelIdeal.Launch
import proofs.«404807_j62981400428626_2_alg».proof.Proof.Gen.KernelIdeal.Points
import proofs.«404807_j62981400428626_2_alg».proof.Proof.Gen.KernelIdeal.Frame
import proofs.«404807_j62981400428626_2_alg».proof.Proof.Gen.ReferenceIdeal
import proofs.«404807_j62981400428626_2_alg».proof.Proof.Gen.Pre_finite_inputs
import proofs.«404807_j62981400428626_2_alg».proof.Proof.Gen.KernelIdeal.Value
import proofs.«404807_j62981400428626_2_alg».proof.Proof.Gen.ReferenceIdeal.Run
import proofs.«404807_j62981400428626_2_alg».proof.Proof.Gen.ReferenceIdeal.Read
import proofs.«404807_j62981400428626_2_alg».proof.Proof.Bridge
import Idealize.ShloMosaic.Adequacy
import Idealize.ShloMosaic.Init

noncomputable section

namespace Cert.Proof

open Idealize.ShloMosaic Idealize.ShloMosaic.TcCoe Idealize.SL.Sem

section Claims

variable [Cert.Kernel.Facts] [Cert.KernelIdeal.Facts] [Cert.ReferenceIdeal.Facts] [Cert.Pre_finite_inputs.Facts]

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result array ends at `kernelOut` of the arguments (KernelArray), the reference's at its last
    stage of arguments that agree (the generated run and read-back); under the precondition the two are one function
    (Bridge). -/
theorem algebraic : Cert.algebraic_KernelIdeal_ReferenceIdeal := by
  intro m ρ m' ρ' hpre hagree
  refine ⟨fun c => Cert.KernelIdeal.ArrayValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2]
  exact (Cert.Bridge.kernelOut_eq _ _ _ _ (hpre c)).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
